-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x256 : Shape := ⟨3, ![32, 256, 256]⟩
abbrev S_ : Shape := ⟨0, ![]⟩

class Facts : Prop where
  bcast_S_S32x256x256 : S_.BroadcastsInDim S32x256x256 (![] : Fin 0 → Fin S32x256x256.rank)
  reducesTo_S32x256x256_S_d0_1_2 : S32x256x256.ReducesTo [0, 1, 2] S_
  h_S_ : 0 < S_.numel

variable [Facts]

def fn {F : FTy → Type} [FloatOps F] (main_arg0 : FVec F S32x256x256 .f32) (main_arg1 : FVec F S32x256x256 .f32) : IVec S_ 1 :=
  let main_v0 : FVec F S32x256x256 .f32 := Host.absf main_arg0
  let main_cst : FVec F S_ .f32 := constant S_ .f32 0x7F800000#32
  let main_v1 : FVec F S32x256x256 .f32 := broadcastInDim S32x256x256 ![] bcast_S_S32x256x256 main_cst
  let main_v2 : IVec S32x256x256 1 := cmpf .olt main_v0 main_v1
  let main_c : IVec S_ 1 := constantI S_ 1 1#1
  let main_v3 : IVec S_ 1 := (fun x v => Host.reduce IntOp.andi x v reducesTo_S32x256x256_S_d0_1_2 h_S_) main_v2 main_c
  let main_v4 : FVec F S32x256x256 .f32 := Host.absf main_arg1
  let main_cst_0 : FVec F S_ .f32 := constant S_ .f32 0x7F800000#32
  let main_v5 : FVec F S32x256x256 .f32 := broadcastInDim S32x256x256 ![] bcast_S_S32x256x256 main_cst_0
  let main_v6 : IVec S32x256x256 1 := cmpf .olt main_v4 main_v5
  let main_c_1 : IVec S_ 1 := constantI S_ 1 1#1
  let main_v7 : IVec S_ 1 := (fun x v => Host.reduce IntOp.andi x v reducesTo_S32x256x256_S_d0_1_2 h_S_) main_v6 main_c_1
  let main_v8 : IVec S_ 1 := andi main_v3 main_v7
  main_v8
-- ==== Kernel.lean ====
abbrev S32x256x256 : Shape := ⟨3, ![32, 256, 256]⟩
abbrev S8192x256 : Shape := ⟨2, ![8192, 256]⟩
abbrev S8192 : Shape := ⟨1, ![8192]⟩
abbrev S256x256 : Shape := ⟨2, ![256, 256]⟩
abbrev S256 : Shape := ⟨1, ![256]⟩
abbrev S256x8192 : Shape := ⟨2, ![256, 8192]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S32x256x256, .f32⟩
  | .hbm, ⟨1, _⟩ => ⟨S32x256x256, .f32⟩
  | .hbm, ⟨2, _⟩ => ⟨S8192x256, .f32⟩
  | .hbm, ⟨3, _⟩ => ⟨S8192x256, .f32⟩
  | .hbm, ⟨4, _⟩ => ⟨S8192, .f32⟩
  | .local _ .vmem, ⟨0, _⟩ => ⟨S256x256, .f32⟩
  | .local _ .vmem, ⟨1, _⟩ => ⟨S256x256, .f32⟩
  | .local _ .vmem, ⟨2, _⟩ => ⟨S8192x256, .f32⟩
  | .local _ .vmem, ⟨3, _⟩ => ⟨S256, .f32⟩
  | .local _ .vmem, ⟨4, _⟩ => ⟨S256, .f32⟩
  | _, _ => ⟨S32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v6 : Index := Scalar.indexCast v1
  let c0_3 : Index := 0#32
  ![v6.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x256x256_S8192x256 : S32x256x256.ShapeCasts S8192x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  bitsLt_bf16_f32 : FTy.bits .bf16 < FTy.bits .f32
  reduces_S256x8192_S256 : S256x8192.Reduces [1] S256
  shapeCasts_S256_S256x1 : S256.ShapeCasts S256x1
  broadcasts_S256x1_S256x8192 : S256x1.Broadcasts S256x8192
  reduces_S256x256_S256 : S256x256.Reduces [1] S256
  shapeCasts_S256x1_S256 : S256x1.ShapeCasts S256
  inb_S256_S256_0 : ∀ a, (![0] : Fin 1 → Nat) a + S256.size a ≤ S256.size a
  h_S256 : 0 < S256.numel
  dot_S256x256_S8192x256_S256x8192_1_1_0_0_n_n_wf : DotDims.WF S256x256 S8192x256 S256x8192 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S8192x256.size a
  hwx0_0 : ∀ i : grid0.Coords, EltTy.bits .f32 = 32 ∨ (Rect.block (s := S8192x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S8192.size a
  hwx0_2 : ∀ i : grid0.Coords, EltTy.bits .f32 = 32 ∨ (Rect.block (s := S8192) S256.size (cc0_transform_2 i) (hinb0_2 i)).WholeWords (EltTy.packing .f32)

variable [Facts₀]

def dot_S256x256_S8192x256_S256x8192_1_1_0_0_n_n : DotDims S256x256 S8192x256 S256x8192 where
  lhsContracting := [1]
  rhsContracting := [1]
  lhsNonContracting := [0]
  rhsNonContracting := [0]
  lhsBatch := []
  rhsBatch := []
  wf := dot_S256x256_S8192x256_S256x8192_1_1_0_0_n_n_wf

abbrev win0_0 : Pipeline.Window sig grid0 :=
  Pipeline.Window.ofSpec (Memref.whole main_v0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x256x256 : Shape := ⟨3, ![32, 256, 256]⟩
abbrev S_ : Shape := ⟨0, ![]⟩
abbrev S32x256x32x256 : Shape := ⟨4, ![32, 256, 32, 256]⟩
abbrev S32x32x256x256 : Shape := ⟨4, ![32, 32, 256, 256]⟩
abbrev S32x32 : Shape := ⟨2, ![32, 32]⟩
abbrev S32x32x1x1 : Shape := ⟨4, ![32, 32, 1, 1]⟩
abbrev S32x256x8192 : Shape := ⟨3, ![32, 256, 8192]⟩
abbrev S32x256x8448 : Shape := ⟨3, ![32, 256, 8448]⟩
abbrev S8192x8448 : Shape := ⟨2, ![8192, 8448]⟩
abbrev S256 : Shape := ⟨1, ![256]⟩
abbrev S1x256 : Shape := ⟨2, ![1, 256]⟩
abbrev S32x256 : Shape := ⟨2, ![32, 256]⟩
abbrev S8192 : Shape := ⟨1, ![8192]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 71
  | .vmem => 0
  | .smem => 0
  | _ => 0

abbrev bufTy : (tb : Table) → Fin (tcTables nBuf tb) → BufTy
  | .hbm, ⟨0, _⟩ => ⟨S32x256x256, .f32⟩
  | .hbm, ⟨1, _⟩ => ⟨S32x256x256, .f32⟩
  | .hbm, ⟨2, _⟩ => ⟨S32x256x256, .f32⟩
  | .hbm, ⟨3, _⟩ => ⟨S_, .f32⟩
  | .hbm, ⟨4, _⟩ => ⟨S32x256x256, .f32⟩
  | .hbm, ⟨5, _⟩ => ⟨S32x256x256, .f32⟩
  | .hbm, ⟨6, _⟩ => ⟨S32x256x32x256, .f32⟩
  | .hbm, ⟨7, _⟩ => ⟨S32x32x256x256, .f32⟩
  | .hbm, ⟨8, _⟩ => ⟨S_, .f32⟩
  | .hbm, ⟨9, _⟩ => ⟨S32x32x256x256, .f32⟩
  | .hbm, ⟨10, _⟩ => ⟨S32x32x256x256, .f32⟩
  | .hbm, ⟨11, _⟩ => ⟨S32x32, .i32⟩
  | .hbm, ⟨12, _⟩ => ⟨S32x32, .i32⟩
  | .hbm, ⟨13, _⟩ => ⟨S_, .i32⟩
  | .hbm, ⟨14, _⟩ => ⟨S32x32, .i32⟩
  | .hbm, ⟨15, _⟩ => ⟨S32x32, .i32⟩
  | .hbm, ⟨16, _⟩ => ⟨S32x32, .i1⟩
  | .hbm, ⟨17, _⟩ => ⟨S32x32x1x1, .i1⟩
  | .hbm, ⟨18, _⟩ => ⟨S_, .f32⟩
  | .hbm, ⟨19, _⟩ => ⟨S_, .f32⟩
  | .hbm, ⟨20, _⟩ => ⟨S32x32x256x256, .i1⟩
  | .hbm, ⟨21, _⟩ => ⟨S32x32x256x256, .f32⟩
  | .hbm, ⟨22, _⟩ => ⟨S32x32x256x256, .f32⟩
  | .hbm, ⟨23, _⟩ => ⟨S32x256x32x256, .f32⟩
  | .hbm, ⟨24, _⟩ => ⟨S32x256x8192, .f32⟩
  | .hbm, ⟨25, _⟩ => ⟨S32x256x8448, .f32⟩
  | .hbm, ⟨26, _⟩ => ⟨S8192x8448, .f32⟩
  | .hbm, ⟨27, _⟩ => ⟨S256, .i32⟩
  | .hbm, ⟨28, _⟩ => ⟨S1x256, .i32⟩
  | .hbm, ⟨29, _⟩ => ⟨S32x256, .i32⟩
  | .hbm, ⟨30, _⟩ => ⟨S8192, .i32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S8192x1, .f32⟩
  | .hbm, ⟨37, _⟩ => ⟨S8192x8448, .f32⟩
  | .hbm, ⟨38, _⟩ => ⟨S8192x8448, .f32⟩
  | .hbm, ⟨39, _⟩ => ⟨S8192x8448, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1, .f32⟩
  | .hbm, ⟨44, _⟩ => ⟨S8192x8448, .f32⟩
  | .hbm, ⟨45, _⟩ => ⟨S8192x8448, .f32⟩
  | .hbm, ⟨46, _⟩ => ⟨S8192x1, .i32⟩
  | .hbm, ⟨47, _⟩ => ⟨S_, .i32⟩
  | .hbm, ⟨48, _⟩ => ⟨S8192x1, .i32⟩
  | .hbm, ⟨49, _⟩ => ⟨S8192x1, .i1⟩
  | .hbm, ⟨50, _⟩ => ⟨S_, .i32⟩
  | .hbm, ⟨51, _⟩ => ⟨S8192x1, .i32⟩
  | .hbm, ⟨52, _⟩ => ⟨S8192x1, .i32⟩
  | .hbm, ⟨53, _⟩ => ⟨S8192x1, .i32⟩
  | .hbm, ⟨54, _⟩ => ⟨S8192x1x1, .i32⟩
  | .hbm, ⟨55, _⟩ => ⟨S1, .i32⟩
  | .hbm, ⟨56, _⟩ => ⟨S_, .i32⟩
  | .hbm, ⟨57, _⟩ => ⟨S8192x1x1, .i32⟩
  | .hbm, ⟨58, _⟩ => ⟨S8192x1x1, .i1⟩
  | .hbm, ⟨59, _⟩ => ⟨S1x1x1, .i32⟩
  | .hbm, ⟨60, _⟩ => ⟨S8192x1x1, .i32⟩
  | .hbm, ⟨61, _⟩ => ⟨S8192x1x1, .i1⟩
  | .hbm, ⟨62, _⟩ => ⟨S8192x1x1, .i1⟩
  | .hbm, ⟨63, _⟩ => ⟨S_, .i1⟩
  | .hbm, ⟨64, _⟩ => ⟨S8192x1, .i1⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192, .f32⟩
  | .hbm, ⟨70, _⟩ => ⟨S8192, .f32⟩
  | _, _ => ⟨S32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call1_cst : Ref sig .tc := ⟨.hbm, 31, rfl⟩
abbrev main_call1_v0 : Ref sig .tc := ⟨.hbm, 32, rfl⟩
abbrev main_call1_cst_0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_cst_1 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_v22 : Ref sig .tc := ⟨.hbm, 45, rfl⟩
abbrev main_v23 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_c_1 : Ref sig .tc := ⟨.hbm, 55, rfl⟩
abbrev main_call2_c_2 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_3 : Ref sig .tc := ⟨.hbm, 63, rfl⟩
abbrev main_call2_v12 : Ref sig .tc := ⟨.hbm, 64, rfl⟩
abbrev main_call2_v13 : Ref sig .tc := ⟨.hbm, 65, rfl⟩
abbrev main_call2_cst : Ref sig .tc := ⟨.hbm, 66, rfl⟩
abbrev main_call2_v14 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩

abbrev nD : Nat := 1
abbrev τ : Topo := Topo.v7x

variable {F : FTy → Type} [FloatOps F]

class Facts₀ : Prop where
  bcast_S_S32x256x256 : S_.BroadcastsInDim S32x256x256 (![] : Fin 0 → Fin S32x256x256.rank)
  transposes_S32x256x32x256_S32x32x256x256_2_0_3_1 : S32x256x32x256.Transposes [2, 0, 3, 1] S32x32x256x256
  bcast_S_S32x32x256x256 : S_.BroadcastsInDim S32x32x256x256 (![] : Fin 0 → Fin S32x32x256x256.rank)
  bcast_S_S32x32 : S_.BroadcastsInDim S32x32 (![] : Fin 0 → Fin S32x32.rank)
  bcast_S32x32_S32x32x1x1_0_1 : S32x32.BroadcastsInDim S32x32x1x1 (![0, 1] : Fin 2 → Fin S32x32x1x1.rank)
  bcast_S32x32x1x1_S32x32x256x256_0_1_2_3 : S32x32x1x1.BroadcastsInDim S32x32x256x256 (![0, 1, 2, 3] : Fin 4 → Fin S32x32x256x256.rank)
  transposes_S32x32x256x256_S32x256x32x256_0_2_1_3 : S32x32x256x256.Transposes [0, 2, 1, 3] S32x256x32x256
  shapeCasts_S32x256x32x256_S32x256x8192 : S32x256x32x256.ShapeCasts S32x256x8192
  concatenates_S32x256x256_S32x256x8192_S32x256x8448_d2 : Shape.Concatenates [S32x256x256, S32x256x8192] S32x256x8448 2
  shapeCasts_S32x256x8448_S8192x8448 : S32x256x8448.ShapeCasts S8192x8448
  shapeCasts_S256_S1x256 : S256.ShapeCasts S1x256
  bcast_S1x256_S32x256_0_1 : S1x256.BroadcastsInDim S32x256 (![0, 1] : Fin 2 → Fin S32x256.rank)
  shapeCasts_S32x256_S8192 : S32x256.ShapeCasts S8192
  reducesTo_S8192x8448_S8192_d1 : S8192x8448.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8448_0_1 : S8192x1.BroadcastsInDim S8192x8448 (![0, 1] : Fin 2 → Fin S8192x8448.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  dot_S32x256x256_S32x256x256_S32x256x256_2_2_1_1_0_0_wf : DotDims.WF S32x256x256 S32x256x256 S32x256x256 [2] [2] [1] [1] [0] [0]
  dot_S32x256x256_S32x256x256_S32x256x32x256_2_2_01_01_n_n_wf : DotDims.WF S32x256x256 S32x256x256 S32x256x32x256 [2] [2] [0, 1] [0, 1] [] []
  gather_S8192x8448_S8192x1x1_S8192x1_n_1_0_0_1_2_11_wf : GatherDims.WF S8192x8448 S8192x1x1 S8192x1 [] [1] [0] [1] [0] 2 ![1, 1]

variable [Facts₀]

def dot_S32x256x256_S32x256x256_S32x256x256_2_2_1_1_0_0 : DotDims S32x256x256 S32x256x256 S32x256x256 where
  lhsContracting := [2]
  rhsContracting := [2]
  lhsNonContracting := [1]
  rhsNonContracting := [1]
  lhsBatch := [0]
  rhsBatch := [0]
  wf := dot_S32x256x256_S32x256x256_S32x256x256_2_2_1_1_0_0_wf
def dot_S32x256x256_S32x256x256_S32x256x32x256_2_2_01_01_n_n : DotDims S32x256x256 S32x256x256 S32x256x32x256 where
  lhsContracting := [2]
  rhsContracting := [2]
  lhsNonContracting := [0, 1]
  rhsNonContracting := [0, 1]
  lhsBatch := []
  rhsBatch := []
  wf := dot_S32x256x256_S32x256x256_S32x256x32x256_2_2_01_01_n_n_wf
def gather_S8192x8448_S8192x1x1_S8192x1_n_1_0_0_1_2_11 : GatherDims S8192x8448 S8192x1x1 S8192x1 where
  offsetDims := []
  collapsedSliceDims := [1]
  operandBatchingDims := [0]
  startIndicesBatchingDims := [0]
  startIndexMap := [1]
  indexVectorDim := 2
  sliceSizes := ![1, 1]
  wf := gather_S8192x8448_S8192x1x1_S8192x1_n_1_0_0_1_2_11_wf

class Facts : Prop extends Facts₀ where

variable [Facts]
-- ==== Proof.Spec.lean ====
/-
  The function both programs compute, stated once over the two argument arrays.

  The arrays are q, k : [32, 256, 256] (image, patch, feature). A flat patch number r in [0, 8192) names image
  r / 256 and patch r % 256. The scaled similarity of query patch r and key patch c is
      sim r c = scale * sum over d of q[r/256, r%256, d] * k[c/256, c%256, d],
  with scale the single-precision word for 1/0.07, the same word in both programs, so it is never evaluated.
  Row r of the loss is the log-sum-exp of sim r over ALL 8192 key patches, taken the stable way (the row maximum
  is subtracted inside the exponential and added back outside), minus the positive term sim r r:
      loss r = (rowMax r + log (sum over c of exp (sim r c - rowMax r))) - sim r r.
  Everything is an extended real; the maximum starts from -infinity, the bottom element.
-/
import Idealize.ShloMosaic.PureOps.Ideal
import Idealize.ShloMosaic.Lib.ValueIdx

noncomputable section

namespace Cert.Spec

open Idealize.ShloMosaic Idealize.ShloMosaic.ValueIdx

/-- An argument array: image, patch, feature. -/
abbrev Arg : Type := (⟨3, ![32, 256, 256]⟩ : Shape).Idx → EReal

/-- The image of a flat patch number. -/
def img (r : Fin 8192) : Fin 32 := ⟨r.val / 256, by have := r.isLt; omega⟩
/-- The patch, inside its image, of a flat patch number. -/
def pat (r : Fin 8192) : Fin 256 := ⟨r.val % 256, Nat.mod_lt _ (by decide)⟩

/-- The shared scale: the single-precision word of 1/0.07, left as its word. -/
def scale : EReal := Ideal.ofBits .f32 0x41649249#32

/-- The scaled similarity of query patch `r` and key patch `c`. -/
def sim (q k : Arg) (r c : Fin 8192) : EReal :=
  scale * ∑ d : Fin 256, q (ix3 (img r) (pat r) d) * k (ix3 (img c) (pat c) d)

/-- The largest similarity in row `r`, from -infinity. -/
def rowMax (q k : Arg) (r : Fin 8192) : EReal := (Finset.univ : Finset (Fin 8192)).fold max ⊥ (sim q k r)

/-- The row's sum of exponentials, shifted by the row maximum. -/
def rowSum (q k : Arg) (r : Fin 8192) : EReal := ∑ c : Fin 8192, Ideal.exp (sim q k r c - rowMax q k r)

/-- The loss of row `r`: its log-sum-exp less its positive term. -/
def lossAt (q k : Arg) (r : Fin 8192) : EReal := (rowMax q k r + Ideal.log (rowSum q k r)) - sim q k r r

/-- The whole result array. -/
def loss (q k : Arg) : (⟨1, ![8192]⟩ : Shape).Idx → EReal := fun j => lossAt q k (j 0)

theorem loss_ix1 (q k : Arg) (r : Fin 8192) : loss q k (ix1 r) = lossAt q k r := rfl

/-! ## The reference's arrangement of a row

The reference builds, for row `r`, 8448 columns: first the 256 key patches of the row's own image (the
"internal" block), then all 8192 key patches in order with those of the row's own image replaced by -infinity (the
"external" block, masked). It takes the row maximum from -infinity twice over, sums the shifted exponentials from
zero, and returns minus the log-probability of column `r % 256`, which lies in the internal block and is the row's
positive term. -/

/-- Every entry of an argument array is a real number. -/
def Finite (x : Arg) : Prop := ∀ i, ∃ v : ℝ, x i = (v : EReal)

/-- Column `col` of the reference's row `r`. -/
def refRow (q k : Arg) (r : Fin 8192) (col : Fin 8448) : EReal :=
  if h : col.val < 256 then sim q k r ⟨256 * (img r).val + col.val, by have := (img r).isLt; omega⟩
  else if (col.val - 256) / 256 = (img r).val then ⊥
  else sim q k r ⟨col.val - 256, by have := col.isLt; omega⟩

/-- The label column of row `r`: its own patch, inside the internal block. -/
def lbl (r : Fin 8192) : Fin 8448 := ⟨(pat r).val, by have := (pat r).isLt; omega⟩

/-- The reference's row maximum: from -infinity, then once more against -infinity. -/
def refMax (q k : Arg) (r : Fin 8192) : EReal := max ⊥ ((Finset.univ : Finset (Fin 8448)).fold max ⊥ (refRow q k r))

/-- The reference's sum of shifted exponentials, from zero. -/
def refSum (q k : Arg) (r : Fin 8192) : EReal := 0 + ∑ col : Fin 8448, Ideal.exp (refRow q k r col - refMax q k r)

/-- What the reference returns at row `r`. -/
def refLossAt (q k : Arg) (r : Fin 8192) : EReal :=
  -((refRow q k r (lbl r) - refMax q k r) - Ideal.log (refSum q k r))

/-- The single-precision word of -infinity is the bottom element. -/
theorem ofBits_negInf : Ideal.ofBits .f32 0xFF800000#32 = (⊥ : EReal) := by simp [Ideal.ofBits, Ideal.ieee]

end Cert.Spec

end
-- ==== Proof.RowAlgebra.lean ====
/-
  The reference's row and the kernel's row are one multiset of similarities, so they have one maximum and one sum
  of shifted exponentials; and for real inputs minus the log-probability of the label column is the log-sum-exp
  less the positive term.
-/
import proofs.«127400_j29411936043016_1_alg».proof.Proof.Spec
import Mathlib.Data.EReal.Basic
import Mathlib.Data.EReal.Operations
import Mathlib.Data.Finset.Fold
import Mathlib.Algebra.BigOperators.Fin
import Mathlib.Algebra.Order.BigOperators.Group.Finset
import Mathlib.Analysis.SpecialFunctions.Log.Basic

noncomputable section

namespace Cert.Spec

open Idealize.ShloMosaic

/-- The shared scale is a real number: its word has an ordinary exponent field. -/
theorem scale_real : ∃ s : ℝ, scale = (s : EReal) := by
  simp [scale, Ideal.ofBits, Ideal.ieee, -EReal.coe_mul]

/-- A flat patch number is 256 times its image plus its patch, so the label column of row `r` holds the row's
    positive term. -/
theorem refRow_lbl (q k : Arg) (r : Fin 8192) : refRow q k r (lbl r) = sim q k r r := by
  have h : (lbl r).val < 256 := (pat r).isLt
  unfold refRow
  rw [dif_pos h]
  congr 1
  apply Fin.ext
  simp only [lbl, img, pat]
  have := Nat.div_add_mod r.val 256
  omega

/-- Every column of the reference's row is -infinity or one of the row's similarities. -/
theorem refRow_cases (q k : Arg) (r : Fin 8192) (col : Fin 8448) :
    refRow q k r col = ⊥ ∨ ∃ c, refRow q k r col = sim q k r c := by
  unfold refRow
  split_ifs
  · exact Or.inr ⟨_, rfl⟩
  · exact Or.inl rfl
  · exact Or.inr ⟨_, rfl⟩

/-- Every similarity of the row occurs in the reference's row: a key patch of the row's own image in the internal
    block, any other in the external block. -/
theorem refRow_surj (q k : Arg) (r c : Fin 8192) : ∃ col, refRow q k r col = sim q k r c := by
  have hc := c.isLt
  by_cases h : c.val / 256 = (img r).val
  · have hlt : c.val % 256 < 256 := Nat.mod_lt _ (by decide)
    refine ⟨⟨c.val % 256, by omega⟩, ?_⟩
    unfold refRow
    rw [dif_pos hlt]
    congr 1
    apply Fin.ext
    show 256 * (img r).val + c.val % 256 = c.val
    have := Nat.div_add_mod c.val 256
    rw [← h]; omega
  · refine ⟨⟨256 + c.val, by omega⟩, ?_⟩
    unfold refRow
    have h1 : ¬ (256 + c.val < 256) := by omega
    have h2 : ¬ ((256 + c.val - 256) / 256 = (img r).val) := by
      rw [Nat.add_sub_cancel_left]; exact h
    rw [dif_neg h1, if_neg h2]
    congr 1
    apply Fin.ext
    show 256 + c.val - 256 = c.val
    omega

/-- The reference's row and the kernel's row have one maximum: a bound holds for the one exactly when it holds for
    the other. -/
theorem refFold_eq (q k : Arg) (r : Fin 8192) :
    (Finset.univ : Finset (Fin 8448)).fold max ⊥ (refRow q k r) = rowMax q k r := by
  apply eq_of_forall_ge_iff
  intro b
  unfold rowMax
  rw [Finset.fold_max_le, Finset.fold_max_le]
  constructor
  · rintro ⟨hb, h⟩
    refine ⟨hb, fun x _ => ?_⟩
    obtain ⟨col, hcol⟩ := refRow_surj q k r x
    rw [← hcol]
    exact h col (Finset.mem_univ _)
  · rintro ⟨hb, h⟩
    refine ⟨hb, fun col _ => ?_⟩
    rcases refRow_cases q k r col with h0 | ⟨x, hx⟩
    · rw [h0]; exact bot_le
    · rw [hx]; exact h x (Finset.mem_univ _)

/-- Taking the maximum once more against -infinity changes nothing. -/
theorem refMax_eq (q k : Arg) (r : Fin 8192) : refMax q k r = rowMax q k r := by
  unfold refMax
  rw [refFold_eq, max_eq_right bot_le]

/-- Summing a function over the 256 flat patch numbers of image `a` is summing it over all flat patch numbers with
    the others zeroed. -/
theorem sum_block (a : Fin 32) (f : Fin 8192 → EReal) :
    ∑ j : Fin 8192, (if j.val / 256 = a.val then f j else 0)
      = ∑ i : Fin 256, f ⟨256 * a.val + i.val, by have := a.isLt; have := i.isLt; omega⟩ := by
  rw [← Finset.sum_filter]
  symm
  refine Finset.sum_bij
    (fun (i : Fin 256) _ => (⟨256 * a.val + i.val, by have := a.isLt; have := i.isLt; omega⟩ : Fin 8192))
    ?_ ?_ ?_ ?_
  · intro i _
    have := i.isLt
    rw [Finset.mem_filter]
    refine ⟨Finset.mem_univ _, ?_⟩
    show (256 * a.val + i.val) / 256 = a.val
    omega
  · intro i _ i' _ h
    have h' : 256 * a.val + i.val = 256 * a.val + i'.val := congrArg Fin.val h
    apply Fin.ext
    omega
  · intro j hj
    rw [Finset.mem_filter] at hj
    have hj2 := hj.2
    refine ⟨⟨j.val % 256, Nat.mod_lt _ (by decide)⟩, Finset.mem_univ _, ?_⟩
    apply Fin.ext
    show 256 * a.val + j.val % 256 = j.val
    have := Nat.div_add_mod j.val 256
    rw [← hj2]; omega
  · intro i _
    rfl

/-- The two rows have one sum of shifted exponentials, whatever the shift: a masked column contributes the
    exponential of -infinity, which is zero, and the remaining columns are the row's similarities once each. -/
theorem refSum_eq (q k : Arg) (r : Fin 8192) (M : EReal) :
    ∑ col : Fin 8448, Ideal.exp (refRow q k r col - M) = ∑ c : Fin 8192, Ideal.exp (sim q k r c - M) := by
  have hsplit : (∑ col : Fin 8448, Ideal.exp (refRow q k r col - M))
      = ∑ i : Fin 256, Ideal.exp (refRow q k r (Fin.castAdd 8192 i) - M)
        + ∑ j : Fin 8192, Ideal.exp (refRow q k r (Fin.natAdd 256 j) - M) :=
    Fin.sum_univ_add (a := 256) (b := 8192) (fun col => Ideal.exp (refRow q k r col - M))
  have hint : ∀ i : Fin 256, Ideal.exp (refRow q k r (Fin.castAdd 8192 i) - M)
      = Ideal.exp (sim q k r ⟨256 * (img r).val + i.val,
          by have := (img r).isLt; have := i.isLt; omega⟩ - M) := by
    intro i
    have h : (Fin.castAdd 8192 i).val < 256 := i.isLt
    unfold refRow
    rw [dif_pos h]
    rfl
  have hext : ∀ j : Fin 8192, Ideal.exp (refRow q k r (Fin.natAdd 256 j) - M)
      = if j.val / 256 = (img r).val then 0 else Ideal.exp (sim q k r j - M) := by
    intro j
    have h1 : ¬ ((Fin.natAdd 256 j).val < 256) := by
      show ¬ (256 + j.val < 256); omega
    have h3 : (Fin.natAdd 256 j).val - 256 = j.val := by
      show 256 + j.val - 256 = j.val; omega
    unfold refRow
    rw [dif_neg h1]
    by_cases h2 : j.val / 256 = (img r).val
    · rw [if_pos (by rw [h3]; exact h2), if_pos h2, EReal.bot_sub]
      rfl
    · rw [if_neg (by rw [h3]; exact h2), if_neg h2]
      congr 3
      apply Fin.ext
      exact h3
  rw [hsplit, Finset.sum_congr rfl (fun i _ => hint i), Finset.sum_congr rfl (fun j _ => hext j),
    ← sum_block (img r) (fun c => Ideal.exp (sim q k r c - M)), ← Finset.sum_add_distrib]
  refine Finset.sum_congr rfl (fun j _ => ?_)
  by_cases h2 : j.val / 256 = (img r).val
  · rw [if_pos h2, if_pos h2, add_zero]
  · rw [if_neg h2, if_neg h2, zero_add]

/-- A finite sum of real numbers, taken in the extended reals, is the real sum. -/
theorem sum_coe {ι : Type} (s : Finset ι) (g : ι → ℝ) :
    ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

/-- For real inputs every similarity is a real number. -/
theorem sim_real (q k : Arg) (hq : Finite q) (hk : Finite k) (r c : Fin 8192) :
    ∃ v : ℝ, sim q k r c = (v : EReal) := by
  obtain ⟨s, hs⟩ := scale_real
  choose a ha using hq
  choose b hb using hk
  refine ⟨s * ∑ d : Fin 256, a (ValueIdx.ix3 (img r) (pat r) d) * b (ValueIdx.ix3 (img c) (pat c) d), ?_⟩
  unfold sim
  rw [hs, EReal.coe_mul, ← sum_coe]
  congr 1
  refine Finset.sum_congr rfl (fun d _ => ?_)
  rw [ha, hb, EReal.coe_mul]

/-- For real inputs the row maximum is a real number: it is above the positive term and below +infinity. -/
theorem rowMax_real (q k : Arg) (hq : Finite q) (hk : Finite k) (r : Fin 8192) :
    ∃ m : ℝ, rowMax q k r = (m : EReal) := by
  have htop : rowMax q k r ≠ ⊤ := by
    apply ne_of_lt
    unfold rowMax
    rw [Finset.fold_max_lt]
    refine ⟨bot_lt_top, fun x _ => ?_⟩
    obtain ⟨v, hv⟩ := sim_real q k hq hk r x
    rw [hv]; exact EReal.coe_lt_top v
  have hbot : rowMax q k r ≠ ⊥ := by
    apply ne_of_gt
    unfold rowMax
    rw [Finset.lt_fold_max]
    refine Or.inr ⟨r, Finset.mem_univ _, ?_⟩
    obtain ⟨v, hv⟩ := sim_real q k hq hk r r
    rw [hv]; exact EReal.bot_lt_coe v
  exact ⟨(rowMax q k r).toReal, (EReal.coe_toReal htop hbot).symm⟩

/-- For real inputs, what the reference returns at row `r` is the loss of row `r`. -/
theorem refLossAt_eq_lossAt (q k : Arg) (hq : Finite q) (hk : Finite k) (r : Fin 8192) :
    refLossAt q k r = lossAt q k r := by
  choose v hv using sim_real q k hq hk r
  obtain ⟨m, hm⟩ := rowMax_real q k hq hk r
  have hS : rowSum q k r = ((∑ c : Fin 8192, Real.exp (v c - m) : ℝ) : EReal) := by
    unfold rowSum
    rw [← sum_coe]
    refine Finset.sum_congr rfl (fun c _ => ?_)
    rw [hv, hm, ← EReal.coe_sub]
    rfl
  have hpos : 0 < ∑ c : Fin 8192, Real.exp (v c - m) :=
    Finset.sum_pos (fun c _ => Real.exp_pos _) Finset.univ_nonempty
  have hlog : Ideal.log (rowSum q k r) = ((Real.log (∑ c : Fin 8192, Real.exp (v c - m)) : ℝ) : EReal) := by
    rw [hS, Ideal.log_coe, if_neg (not_le.mpr hpos)]
  unfold refLossAt lossAt refSum
  rw [zero_add, refRow_lbl, refMax_eq, refSum_eq]
  show -((sim q k r r - rowMax q k r) - Ideal.log (rowSum q k r))
      = (rowMax q k r + Ideal.log (rowSum q k r)) - sim q k r r
  rw [hlog, hv, hm]
  have : -((v r - m) - Real.log (∑ c : Fin 8192, Real.exp (v c - m)))
      = (m + Real.log (∑ c : Fin 8192, Real.exp (v c - m))) - v r := by ring
  exact_mod_cast this

end Cert.Spec

end
-- ==== Proof.InputsFinite.lean ====
/-
  The precondition, read: both argument arrays hold real numbers only.

  The predicate asks, for each array, that |x| < +infinity at every index, joins the answers of one array by "and"
  over all three axes into a single bit, and joins the two bits by "and". If the outcome is 1, both bits are 1; a
  conjunction over all indices that is 1 had a 1 at every index; and an extended real whose absolute value is strictly
  below +infinity is neither infinity, hence a real number.
-/
import proofs.«127400_j29411936043016_1_alg».proof.Pre_finite_inputs
import proofs.«127400_j29411936043016_1_alg».proof.Proof.Gen.Pre_finite_inputs
import proofs.«127400_j29411936043016_1_alg».proof.Proof.Spec
import Idealize.ShloMosaic.PureOps.Ideal
import Idealize.ShloMosaic.Lib.ReduceAll

noncomputable section

namespace Cert.InputsFinite

open Idealize.ShloMosaic

/-- The shape with no axes has exactly one index: two indices are functions out of the empty set of axes. -/
local instance subsingleton_scalar_idx : Subsingleton Cert.Pre_finite_inputs.S_.Idx :=
  ⟨fun _ _ => funext fun d => d.elim0⟩

/-- The single-precision word 0x7F800000 (sign 0, exponent all ones, fraction 0) denotes +infinity. -/
theorem ofBits_posInf : Ideal.ofBits .f32 0x7F800000#32 = (⊤ : EReal) := by simp [Ideal.ofBits, Ideal.ieee]

/-- An extended real whose absolute value max(a, -a) lies strictly below +infinity is a real number:
    at either infinity the absolute value is +infinity itself, which is not below +infinity. -/
theorem real_of_abs_lt_top (a : EReal) (h : Ideal.cmp .olt (max a (-a)) ⊤ = 1#1) : ∃ v : ℝ, a = (v : EReal) := by
  induction a using EReal.rec with
  | bot => simp [Ideal.cmp] at h
  | coe v => exact ⟨v, rfl⟩
  | top => simp [Ideal.cmp] at h

/-- One array. If the conjunction, over all indices, of the bits "|x i| < +infinity" is 1, then every bit is 1,
    so every entry of the array is a real number. The starting value of the conjunction plays no part. -/
theorem finite_of_all [Cert.Pre_finite_inputs.Facts] (x : FVec Ideal Cert.Pre_finite_inputs.S32x256x256 .f32)
    (init : IVec Cert.Pre_finite_inputs.S_ 1)
    (e : Host.reduce IntOp.andi
        (cmpf .olt (Host.absf x)
          (broadcastInDim Cert.Pre_finite_inputs.S32x256x256 ![] Cert.Pre_finite_inputs.Facts.bcast_S_S32x256x256
            (constant Cert.Pre_finite_inputs.S_ .f32 0x7F800000#32)))
        init Cert.Pre_finite_inputs.Facts.reducesTo_S32x256x256_S_d0_1_2 Cert.Pre_finite_inputs.Facts.h_S_
        ValueIdx.ix0 = 1#1) :
    Cert.Spec.Finite x := by
  intro i
  -- the bit at index i is 1
  have hi := Host.reduce_andi_all _ _ _ _ _ e i
  refine real_of_abs_lt_top (x i) ?_
  -- the broadcast constant, read at i, is the word of +infinity; the bit is the comparison |x i| < that word
  rw [← ofBits_posInf]
  exact hi

/-- If the printed predicate is all ones on two arrays of extended reals, every entry of both is a real number. -/
theorem finite_of_pre [Cert.Pre_finite_inputs.Facts]
    (x0 x1 : FVec Ideal Cert.Pre_finite_inputs.S32x256x256 .f32)
    (h : Cert.Pre_finite_inputs.fn (F := Ideal) x0 x1 = fun _ => 1#1) :
    Cert.Spec.Finite x0 ∧ Cert.Spec.Finite x1 := by
  -- the predicate's single bit
  have h0 := congrFun h ValueIdx.ix0
  dsimp only [Cert.Pre_finite_inputs.fn] at h0
  -- it is the "and" of one bit per array, so both are 1
  obtain ⟨ha, hb⟩ := IntOp.andi_eq_one.1 h0
  exact ⟨finite_of_all x0 _ ha, finite_of_all x1 _ hb⟩

end Cert.InputsFinite

end
-- ==== Proof.KernelPayload.lean ====
/-
  The kernel body's arithmetic, read at one row of its output block: from the query block `x0` (256 rows), the whole
  key array `x1` (8192 rows) and the 256 key rows `x7` that sit beside the query block, row `p` of the stored vector is
  the log-sum-exp over all 8192 scaled dot products of query row `p`, less the scaled dot product of query row `p`
  with row `p` of `x7`.
-/
import proofs.«127400_j29411936043016_1_alg».proof.Proof.Gen.KernelIdeal.Skeleton
import proofs.«127400_j29411936043016_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KPayload

open Cert.KernelIdeal Cert.KernelIdeal.Gen Idealize.ShloMosaic Idealize.ShloMosaic.ValueIdx

/-- Scaled dot product of row `p` of a 256-row block with row `c` of an 8192-row array. -/
def bsim (x0 : (⟨2, ![256, 256]⟩ : Shape).Idx → EReal) (x1 : (⟨2, ![8192, 256]⟩ : Shape).Idx → EReal)
    (p : Fin 256) (c : Fin 8192) : EReal :=
  Cert.Spec.scale * ∑ d : Fin 256, x0 (ix2 p d) * x1 (ix2 c d)

/-- The largest of them over the 8192 rows, from -infinity. -/
def bmax (x0 : (⟨2, ![256, 256]⟩ : Shape).Idx → EReal) (x1 : (⟨2, ![8192, 256]⟩ : Shape).Idx → EReal)
    (p : Fin 256) : EReal :=
  (Finset.univ : Finset (Fin 8192)).fold max ⊥ (bsim x0 x1 p)

/-- The loss of block row `p`. -/
def bloss (x0 : (⟨2, ![256, 256]⟩ : Shape).Idx → EReal) (x1 : (⟨2, ![8192, 256]⟩ : Shape).Idx → EReal)
    (x7 : (⟨2, ![256, 256]⟩ : Shape).Idx → EReal) (p : Fin 256) : EReal :=
  (bmax x0 x1 p + Ideal.log (∑ c : Fin 8192, Ideal.exp (bsim x0 x1 p c - bmax x0 x1 p)))
    - Cert.Spec.scale * ∑ d : Fin 256, x0 (ix2 p d) * x7 (ix2 p d)

/-! ## A trailing unit axis: a column kept, dropped, or spread over a row -/

section Column
variable {α : Type}

/-- An `[a]` array viewed as the column `[a, 1]` reads, at `(i, u)`, the operand at `i`: the two row-major positions
    are `i * 1 + 0` and `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` viewed as `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` spread over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row `p` with lane `c` put back on the reduced axis is `(p, c)`. -/
theorem lift_lane {a b : ℕ} (h : (⟨2, ![a, b]⟩ : Shape).Reduces [1] ⟨1, ![a]⟩) (p : Fin a) (c : Fin b) :
    h.lift (ix1 p) c = ix2 p c :=
  funext fun ax => Fin.ext (match ax with | ⟨0, _⟩ => rfl | ⟨1, _⟩ => rfl)

end Column

/-! ## The product: row `p` of the block against row `c` of the array -/

/-- The left operand's row is the result's row. -/
theorem dotL0 (i : S256x8192.Idx) (q : dot_S256x256_S8192x256_S256x8192_1_1_0_0_n_n.contr.Idx) :
    (dot_S256x256_S8192x256_S256x8192_1_1_0_0_n_n.lhsIdx i q 0).val = (i 0).val := by
  unfold DotDims.lhsIdx
  rw [dif_neg (show ¬(0 : Fin S256x256.rank) ∈ dot_S256x256_S8192x256_S256x8192_1_1_0_0_n_n.lhsBatch by decide), dif_pos (show (0 : Fin S256x256.rank) ∈ dot_S256x256_S8192x256_S256x8192_1_1_0_0_n_n.lhsNonContracting by decide)]
  rfl
/-- The left operand's feature is the contraction coordinate. -/
theorem dotL1 (i : S256x8192.Idx) (q : dot_S256x256_S8192x256_S256x8192_1_1_0_0_n_n.contr.Idx) :
    (dot_S256x256_S8192x256_S256x8192_1_1_0_0_n_n.lhsIdx i q 1).val = (q ⟨0, by decide⟩).val :=
  dot_S256x256_S8192x256_S256x8192_1_1_0_0_n_n.lhsIdx_val_of_single rfl i q
/-- The right operand's row is the result's lane. -/
theorem dotR0 (i : S256x8192.Idx) (q : dot_S256x256_S8192x256_S256x8192_1_1_0_0_n_n.contr.Idx) :
    (dot_S256x256_S8192x256_S256x8192_1_1_0_0_n_n.rhsIdx i q 0).val = (i 1).val := by
  unfold DotDims.rhsIdx
  rw [dif_neg (show ¬(0 : Fin S8192x256.rank) ∈ dot_S256x256_S8192x256_S256x8192_1_1_0_0_n_n.rhsBatch by decide), dif_pos (show (0 : Fin S8192x256.rank) ∈ dot_S256x256_S8192x256_S256x8192_1_1_0_0_n_n.rhsNonContracting by decide)]
  rfl
/-- The right operand's feature is the contraction coordinate. -/
theorem dotR1 (i : S256x8192.Idx) (q : dot_S256x256_S8192x256_S256x8192_1_1_0_0_n_n.contr.Idx) :
    (dot_S256x256_S8192x256_S256x8192_1_1_0_0_n_n.rhsIdx i q 1).val = (q ⟨0, by decide⟩).val :=
  dot_S256x256_S8192x256_S256x8192_1_1_0_0_n_n.rhsIdx_val_of_single rfl i q

/-- The product into the zero accumulator, at `(p, c)`: the sum over the 256 features of row `p` of the left operand
    times row `c` of the right one. -/
theorem matmul_row (l : FVec Ideal S256x256 .bf16) (r : FVec Ideal S8192x256 .bf16) (p : Fin 256) (c : Fin 8192) :
    FloatOps.matmul dot_S256x256_S8192x256_S256x8192_1_1_0_0_n_n none l r (constant S256x8192 .f32 0x00000000#32) (ix2 p c)
      = ∑ d : Fin 256, l (ix2 p d) * r (ix2 c d) := by
  rw [Ideal.matmul_constant_zero_apply, ← Equiv.sum_comp (contrEquiv1 dot_S256x256_S8192x256_S256x8192_1_1_0_0_n_n 256 rfl rfl).symm]
  refine Finset.sum_congr rfl fun d _ => ?_
  have hd := contrEquiv1_symm_val dot_S256x256_S8192x256_S256x8192_1_1_0_0_n_n 256 rfl rfl d
  have el : dot_S256x256_S8192x256_S256x8192_1_1_0_0_n_n.lhsIdx (ix2 p c) ((contrEquiv1 dot_S256x256_S8192x256_S256x8192_1_1_0_0_n_n 256 rfl rfl).symm d) = ix2 p d := funext fun a => Fin.ext (by
    match a with
    | ⟨0, _⟩ => exact dotL0 _ _
    | ⟨1, _⟩ => exact (dotL1 _ _).trans hd)
  have er : dot_S256x256_S8192x256_S256x8192_1_1_0_0_n_n.rhsIdx (ix2 p c) ((contrEquiv1 dot_S256x256_S8192x256_S256x8192_1_1_0_0_n_n 256 rfl rfl).symm d) = ix2 c d := funext fun a => Fin.ext (by
    match a with
    | ⟨0, _⟩ => exact dotR0 _ _
    | ⟨1, _⟩ => exact (dotR1 _ _).trans hd)
  rw [el, er]

/-! ## A reduction over the lanes of a row, kept as a column -/

/-- A lane maximum at row `p`: the fold of `max` over the row's lanes, from the accumulator's value. -/
theorem laneMax_apply {a b : ℕ} (v : FVec Ideal ⟨2, ![a, b]⟩ .f32) (acc : BitVec (FTy.bits .f32))
    (h : (⟨2, ![a, b]⟩ : Shape).Reduces [1] ⟨1, ![a]⟩) (hφ : FKind.Formats .f32) (hacc : acc = FKind.maximumf.neutral .f32 hφ)
    (p : Fin a) :
    multiReduction (F := Ideal) .maximumf [1] ⟨1, ![a]⟩ v acc h hφ hacc (ix1 p)
      = (Finset.univ : Finset (Fin b)).fold max (Ideal.ofBits .f32 acc) (fun c => v (ix2 p c)) := by
  refine (Ideal.multiReduction_maximumf_single v acc h hφ hacc (ix1 p)).trans ?_
  show (Finset.univ : Finset (Fin b)).fold max (Ideal.ofBits .f32 acc) (fun c => v (h.lift (ix1 p) c)) = _
  exact congrArg (fun f => (Finset.univ : Finset (Fin b)).fold max (Ideal.ofBits .f32 acc) f)
    (funext fun c => congrArg v (lift_lane h p c))

/-- A lane sum at row `p`: the sum of the row's lanes. -/
theorem laneSum_apply {a b : ℕ} (v : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (p : Fin a) :
    multiReduction (F := Ideal) .add [1] ⟨1, ![a]⟩ v acc h hφ hacc (ix1 p) = ∑ c : Fin b, v (ix2 p c) := by
  refine (Ideal.multiReduction_add_single v acc h hφ hacc (ix1 p)).trans ?_
  show ∑ c : Fin b, v (h.lift (ix1 p) c) = _
  exact Finset.sum_congr rfl fun c _ => congrArg v (lift_lane h p c)

/-- The lane maximum kept as a column, read at `(p, u)`. -/
theorem colMax_apply {a b : ℕ} (v : FVec Ideal ⟨2, ![a, b]⟩ .f32) (acc : BitVec (FTy.bits .f32))
    (h : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (p : Fin a) (u : Fin 1) :
    shapeCast ⟨2, ![a, 1]⟩ (multiReduction (F := Ideal) .maximumf [1] ⟨1, ![a]⟩ v acc h hφ hacc) hc (ix2 p u)
      = (Finset.univ : Finset (Fin b)).fold max (Ideal.ofBits .f32 acc) (fun c => v (ix2 p c)) :=
  (shapeCast_a_a1_apply _ hc p u).trans (laneMax_apply v acc h hφ hacc p)

/-- The lane sum kept as a column, read at `(p, u)`. -/
theorem colSum_apply {a b : ℕ} (v : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (p : Fin a) (u : Fin 1) :
    shapeCast ⟨2, ![a, 1]⟩ (multiReduction (F := Ideal) .add [1] ⟨1, ![a]⟩ v acc h hφ hacc) hc (ix2 p u)
      = ∑ c : Fin b, v (ix2 p c) :=
  (shapeCast_a_a1_apply _ hc p u).trans (laneSum_apply v acc h hφ hacc p)

/-! ## The scaled products as the body forms them -/

/-- Both operands pass a cast to their own shape and a narrowing (neither changes an ideal value), are multiplied into
    the zero accumulator, and the product is scaled. -/
def kSim (x0 : Vec Ideal S256x256 .f32) (x1 : Vec Ideal S8192x256 .f32) : FVec Ideal S256x8192 .f32 :=
  mulf (broadcast S256x8192 (Scalar.ofBits .f32 0x41649249#32))
    (matmul dot_S256x256_S8192x256_S256x8192_1_1_0_0_n_n none
      (truncf .bf16 (shapeCast S256x256 x0 shapeCasts_S256x256_S256x256) bitsLt_bf16_f32)
      (truncf .bf16 (shapeCast S8192x256 x1 shapeCasts_S8192x256_S8192x256) bitsLt_bf16_f32)
      (constant S256x8192 .f32 0x00000000#32))

theorem kSim_apply (x0 : Vec Ideal S256x256 .f32) (x1 : Vec Ideal S8192x256 .f32) (p : Fin 256) (c : Fin 8192) :
    kSim x0 x1 (ix2 p c) = bsim x0 x1 p c := by
  unfold kSim bsim
  rw [shapeCast_self, shapeCast_self]
  exact congrArg (Cert.Spec.scale * ·) (matmul_row _ _ p c)

/-- The row maxima of the scaled products, kept as a column. -/
def kMaxCol (x0 : Vec Ideal S256x256 .f32) (x1 : Vec Ideal S8192x256 .f32) : FVec Ideal S256x1 .f32 :=
  shapeCast S256x1 (multiReduction .maximumf [1] S256 (kSim x0 x1) 0xFF800000#32 reduces_S256x8192_S256 (.inl rfl) rfl)
    shapeCasts_S256_S256x1

/-- The row sums of the exponentials of the products less their row maximum, kept as a column. -/
def kSumCol (x0 : Vec Ideal S256x256 .f32) (x1 : Vec Ideal S8192x256 .f32) : FVec Ideal S256x1 .f32 :=
  shapeCast S256x1
    (multiReduction .add [1] S256
      (exp (subf (kSim x0 x1) (broadcastTo S256x8192 (kMaxCol x0 x1) broadcasts_S256x1_S256x8192)))
      0x00000000#32 reduces_S256x8192_S256 (.inl rfl) rfl)
    shapeCasts_S256_S256x1

/-- The positive term: the scaled row sums of the elementwise product of the block and its companion rows, as a column. -/
def kPosCol (x0 x7 : Vec Ideal S256x256 .f32) : FVec Ideal S256x1 .f32 :=
  mulf (broadcast S256x1 (Scalar.ofBits .f32 0x41649249#32))
    (shapeCast S256x1
      (multiReduction .add [1] S256
        (mulf (shapeCast S256x256 x0 shapeCasts_S256x256_S256x256) (shapeCast S256x256 x7 shapeCasts_S256x256_S256x256))
        0x00000000#32 reduces_S256x256_S256 (.inl rfl) rfl)
      shapeCasts_S256_S256x1)

/-- The body's value is the column of row maxima plus the logarithm of the column of sums, less the positive term, read
    back as a vector. -/
theorem pay_eq (x0 : Vec Ideal S256x256 .f32) (x1 : Vec Ideal S8192x256 .f32) (x7 : Vec Ideal S256x256 .f32) :
    k0_pay1 (F := Ideal) x0 x1 x7
      = shapeCast S256 (subf (addf (kMaxCol x0 x1) (log (kSumCol x0 x1))) (kPosCol x0 x7)) shapeCasts_S256x1_S256 := rfl

/-- The column of row maxima at row `p` is the block's row maximum. -/
theorem kMaxCol_apply (x0 : Vec Ideal S256x256 .f32) (x1 : Vec Ideal S8192x256 .f32) (p : Fin 256) (u : Fin 1) :
    kMaxCol x0 x1 (ix2 p u) = bmax x0 x1 p :=
  (colMax_apply (kSim x0 x1) _ _ _ _ _ p u).trans
    (congrArg₂ (fun a f => (Finset.univ : Finset (Fin 8192)).fold max a f) Cert.Spec.ofBits_negInf
      (funext fun c => kSim_apply x0 x1 p c))

/-- The column of sums at row `p`: each lane is the exponential of the scaled product less the row maximum. -/
theorem kSumCol_apply (x0 : Vec Ideal S256x256 .f32) (x1 : Vec Ideal S8192x256 .f32) (p : Fin 256) (u : Fin 1) :
    kSumCol x0 x1 (ix2 p u) = ∑ c : Fin 8192, Ideal.exp (bsim x0 x1 p c - bmax x0 x1 p) := by
  refine (colSum_apply (exp (subf (kSim x0 x1) (broadcastTo S256x8192 (kMaxCol x0 x1) broadcasts_S256x1_S256x8192)))
    _ _ _ _ _ p u).trans (Finset.sum_congr rfl fun c _ => ?_)
  show Ideal.exp (kSim x0 x1 (ix2 p c) - broadcastTo S256x8192 (kMaxCol x0 x1) broadcasts_S256x1_S256x8192 (ix2 p c)) = _
  rw [kSim_apply, broadcastTo_a1_ab_apply, kMaxCol_apply]

/-- The positive term at row `p`. -/
theorem kPosCol_apply (x0 x7 : Vec Ideal S256x256 .f32) (p : Fin 256) (u : Fin 1) :
    kPosCol x0 x7 (ix2 p u) = Cert.Spec.scale * ∑ d : Fin 256, x0 (ix2 p d) * x7 (ix2 p d) := by
  unfold kPosCol
  rw [shapeCast_self, shapeCast_self]
  refine congrArg (Cert.Spec.scale * ·) ((colSum_apply (mulf x0 x7) _ _ _ _ _ p u).trans (Finset.sum_congr rfl fun d _ => ?_))
  rfl

/-- The logarithm of a vector, read at an index. -/
theorem log_apply {s : Shape} (v : FVec Ideal s .f32) (i : s.Idx) : log v i = Ideal.log (v i) := rfl

/-- The stored vector at row `p` is the loss of block row `p`. -/
theorem pay_apply (x0 : Vec Ideal S256x256 .f32) (x1 : Vec Ideal S8192x256 .f32) (x7 : Vec Ideal S256x256 .f32)
    (p : Fin 256) :
    k0_pay1 (F := Ideal) x0 x1 x7 (ix1 p) = bloss x0 x1 x7 p := by
  unfold bloss
  rw [pay_eq]
  refine (shapeCast_a1_a_apply _ _ p).trans ?_
  rw [subf_apply, addf_apply, log_apply, kMaxCol_apply, kSumCol_apply, kPosCol_apply]

end Cert.KernelIdeal.KPayload

end
-- ==== Proof.KernelValue.lean ====
/-
  The kernel's result array, after its run at the ideal values, is the loss of the two argument arrays.

  Grid point t holds rows 256 t … 256 t + 255 of the flattened queries, the whole flattened key array, and stores
  256 entries of the result. What it stores at entry p is the payload of the query block, the key array and the 256
  key rows starting at row 256 t; read at a row, that is the log-sum-exp of the row's scaled similarities less the
  row's own, which is the loss of flat row 256 t + p once a flat row r is read as patch r % 256 of image r / 256.
  The 32 blocks tile the 8192 entries, so the array ends at the loss everywhere.
-/
import proofs.«127400_j29411936043016_1_alg».proof.Defs
import proofs.«127400_j29411936043016_1_alg».proof.Proof.Gen.KernelIdeal.Value
import proofs.«127400_j29411936043016_1_alg».proof.Proof.Spec
import proofs.«127400_j29411936043016_1_alg».proof.Proof.KernelPayload
import Idealize.ShloMosaic.Lib.Pipeline.Value
import Idealize.ShloMosaic.Lib.ValueIdx
import Idealize.ShloMosaic.PureOps.Ideal.Laws

noncomputable section

namespace Cert.KernelIdeal.KValue

open Cert.KernelIdeal Cert.KernelIdeal.Gen Idealize.ShloMosaic Idealize.ShloMosaic.TcCoe Idealize.SL.Sem
open Idealize.ShloMosaic.Tactic

open Idealize.ShloMosaic.ValueIdx

/-! ## Zero offsets, however spelt -/

theorem zeros2 : (![0, 0] : Fin 2 → Nat) = fun _ => 0 := funext fun a => by fin_cases a <;> rfl
theorem zeros1 : (![0] : Fin 1 → Nat) = fun _ => 0 := funext fun a => by fin_cases a; rfl

/-! ## What the body's one store leaves in the output block -/

section piece
variable {F : FTy → Type} [FloatOps F]

/-- The 256 rows of the key array that start at the dynamic row offset of grid coordinates `i`. -/
abbrev ownRows (i : grid0.Coords) (x1 : Vec F S8192x256 .f32) : Vec F S256x256 .f32 :=
  View.ld x1 (Rect.unit (s := S8192x256) (k0_off1 i) S256x256.size (k0_off1_inb i))

/-- The output block after the body is the payload of the query block, the whole key array, and the key rows at
    the dynamic offset: the one store covers the block, and the two whole loads read the staged contents. -/
theorem out_eq_pay (c : Dev nD) (i : grid0.Coords) (arg1 : Memref sig .tc .vmem S256x256 .f32) (harg1 : arg1.IsWhole) (arg2 : Memref sig .tc .vmem S8192x256 .f32) (harg2 : arg2.IsWhole) (arg3 : Memref sig .tc .vmem S256 .f32) (harg3 : arg3.IsWhole)
    (x0 : Vec F S256x256 .f32) (x1 : Vec F S8192x256 .f32) :
    out0_A_2 c i arg1 harg1 arg2 harg2 arg3 harg3 x0 x1 = k0_pay1 x0 x1 (ownRows i x1) := by
  unfold out0_A_2
  rw [View.read_writes_eq_canon _ _ _ (cover0_A_2 c i arg1 harg1 arg2 harg2 arg3 harg3 x0 x1)]
  unfold kernelRun0_A
  dsimp only
  try sl_unfold_words
  rw [View.canon_unit_zero zeros1]
  simp only [View.readAt_eq_ld, harg1.read_unread, harg2.read_unread, View.ld_unit_zero (S := S256x256) zeros2, View.ld_unit_zero (S := S8192x256) zeros2]
  rfl
end piece

/-! ## Flat rows and (image, patch) pairs -/

/-- Row `r` of the flattened array is patch `r % 256` of image `r / 256`. -/
theorem flat_read (x : Cert.Spec.Arg) (h : S32x256x256.ShapeCasts S8192x256) (r : Fin 8192) (d : Fin 256) :
    shapeCast S8192x256 x h (ix2 r d) = x (ix3 (Cert.Spec.img r) (Cert.Spec.pat r) d) := by
  refine shapeCast_apply x h (ix2 r d) (ix3 (Cert.Spec.img r) (Cert.Spec.pat r) d) ?_
  rw [Shape.rowMajor_val_three, Shape.rowMajor_val_two]
  show ((Cert.Spec.img r).val * 256 + (Cert.Spec.pat r).val) * 256 + d.val = r.val * 256 + d.val
  show (r.val / 256 * 256 + r.val % 256) * 256 + d.val = r.val * 256 + d.val
  omega

/-! ## The block's loss is the row's loss -/

open Cert.KernelIdeal.KPayload in
/-- If query-block row `p` is flat row `r` of the queries, the key array is the flattened keys, and row `p` of the
    key rows beside the block is flat row `r` of the keys, then the block's loss at `p` is the loss of row `r`. -/
theorem bloss_eq_lossAt (q k : Cert.Spec.Arg) (x0 x7 : (⟨2, ![256, 256]⟩ : Shape).Idx → EReal)
    (x1 : (⟨2, ![8192, 256]⟩ : Shape).Idx → EReal) (p : Fin 256) (r : Fin 8192)
    (h0 : ∀ d, x0 (ix2 p d) = q (ix3 (Cert.Spec.img r) (Cert.Spec.pat r) d))
    (h1 : ∀ c d, x1 (ix2 c d) = k (ix3 (Cert.Spec.img c) (Cert.Spec.pat c) d))
    (h7 : ∀ d, x7 (ix2 p d) = k (ix3 (Cert.Spec.img r) (Cert.Spec.pat r) d)) :
    bloss x0 x1 x7 p = Cert.Spec.lossAt q k r := by
  have hs : bsim x0 x1 p = Cert.Spec.sim q k r := by
    funext c
    unfold bsim Cert.Spec.sim
    refine congrArg (Cert.Spec.scale * ·) (Finset.sum_congr rfl fun d _ => ?_)
    rw [h0 d, h1 c d]
  have hm : bmax x0 x1 p = Cert.Spec.rowMax q k r := by
    unfold bmax Cert.Spec.rowMax
    rw [hs]
  have hp : (∑ d : Fin 256, x0 (ix2 p d) * x7 (ix2 p d))
      = ∑ d : Fin 256, q (ix3 (Cert.Spec.img r) (Cert.Spec.pat r) d) * k (ix3 (Cert.Spec.img r) (Cert.Spec.pat r) d) :=
    Finset.sum_congr rfl fun d _ => by rw [h0 d, h7 d]
  unfold bloss Cert.Spec.lossAt Cert.Spec.rowSum
  rw [hm, hs, hp]
  rfl

/-! ## Where each window's block sits, decided over the 32 grid points -/

/-- Block `t` of the queries starts at row block `t`; the key window is the whole array at every point; block `t` of
    the result is entry block `t`; and the dynamic row offset of the body's third load is `256 * t`. -/
theorem where_blocks : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = t.val
    ∧ k0_off1 (grid0.coords t) (0 : Fin 2) = 256 * t.val ∧ k0_off1 (grid0.coords t) (1 : Fin 2) = 0 :=
  (by decide +kernel : ∀ t : Fin grid0.N, _)

theorem grid_size : cfg0.N = 32 := N_0

section reads
variable (m : (ℓ : Loc nD τ sig) → Buf (Elt Ideal) ℓ)

/-- The flattened queries and keys, as the region finds them. -/
abbrev qflat (c : Dev nD) : Vec Ideal S8192x256 .f32 := V m c main_v0
abbrev kflat (c : Dev nD) : Vec Ideal S8192x256 .f32 := V m c main_v1
/-- The two argument arrays. -/
abbrev qarg (c : Dev nD) : Cert.Spec.Arg := m ((c : Thread nD τ).loc main_arg0)
abbrev karg (c : Dev nD) : Cert.Spec.Arg := m ((c : Thread nD τ).loc main_arg1)
/-- The query block and the key window of point `t`. -/
abbrev qblk (c : Dev nD) (t : Fin cfg0.N) : Vec Ideal S256x256 .f32 := iblk m c 0 t
abbrev kwin (c : Dev nD) (t : Fin cfg0.N) : Vec Ideal S8192x256 .f32 := iblk m c 1 t

/-- The host flattens the queries before the region. -/
theorem qflat_eq (c : Dev nD) : qflat m c = shapeCast S8192x256 (qarg m c) shapeCasts_S32x256x256_S8192x256 := by
  show (V m c main_v0 : S8192x256.Idx → EReal) = _
  dsimp only [Gen.V, Gen.hostOps0]; after_results; rfl

/-- The host flattens the keys before the region. -/
theorem kflat_eq (c : Dev nD) : kflat m c = shapeCast S8192x256 (karg m c) shapeCasts_S32x256x256_S8192x256 := by
  show (V m c main_v1 : S8192x256.Idx → EReal) = _
  dsimp only [Gen.V, Gen.hostOps0]; after_results; rfl

/-- Row `p` of query block `t` is flat row `256 * t + p`. -/
theorem qblk_apply (c : Dev nD) (t : Fin cfg0.N) (p d : Fin 256) (r : Fin 8192) (hr : r.val = 256 * t.val + p.val) :
    qblk m c t (ix2 p d) = qflat m c (ix2 r d) := by
  obtain ⟨e0, e1, -⟩ := where_blocks t
  unfold qblk iblk
  rw [View.read_apply]
  show V m c main_v0 _ = V m c main_v0 _
  congr 1
  funext a
  apply Fin.ext
  match a with
  | ⟨0, _⟩ => show win0_0.index t 0 * 256 + 1 * p.val = r.val; rw [e0, hr]; omega
  | ⟨1, _⟩ => show win0_0.index t 1 * 256 + 1 * d.val = d.val; rw [e1]; omega

/-- The key window at every point is the whole flattened key array. -/
theorem kwin_apply (c : Dev nD) (t : Fin cfg0.N) (r : Fin 8192) (d : Fin 256) :
    kwin m c t (ix2 r d) = kflat m c (ix2 r d) := by
  obtain ⟨-, -, e0, e1, -⟩ := where_blocks t
  unfold kwin iblk
  rw [View.read_apply]
  show V m c main_v1 _ = V m c main_v1 _
  congr 1
  funext a
  apply Fin.ext
  match a with
  | ⟨0, _⟩ => show win0_1.index t 0 * 8192 + 1 * r.val = r.val; rw [e0]; omega
  | ⟨1, _⟩ => show win0_1.index t 1 * 256 + 1 * d.val = d.val; rw [e1]; omega

end reads

/-- Row `p` of the rows loaded at the dynamic offset of point `t` is row `256 * t + p` of the loaded-from array. -/
theorem ownRows_apply (t : Fin cfg0.N) (x1 : Vec Ideal S8192x256 .f32) (p d : Fin 256) (r : Fin 8192)
    (hr : r.val = 256 * t.val + p.val) :
    ownRows (grid0.coords t) x1 (ix2 p d) = x1 (ix2 r d) := by
  obtain ⟨-, -, -, -, -, e0, e1⟩ := where_blocks t
  show x1 _ = x1 _
  congr 1
  funext a
  apply Fin.ext
  match a with
  | ⟨0, _⟩ => show k0_off1 (grid0.coords t) 0 + 1 * p.val = r.val; rw [e0, hr]; omega
  | ⟨1, _⟩ => show k0_off1 (grid0.coords t) 1 + 1 * d.val = d.val; rw [e1]; omega

/-! ## From blocks to the array -/

section blocks
variable (m : (ℓ : Loc nD τ sig) → Buf (Elt Ideal) ℓ)

/-- The array the run should leave: the loss of the two argument arrays. -/
abbrev target (c : Dev nD) : S8192.Idx → EReal := Cert.Spec.loss (qarg m c) (karg m c)

/-- After the body at point `t`, entry `p` of the output block is the loss of flat row `256 * t + p`. -/
theorem out_apply (c : Dev nD) (t : Fin cfg0.N) (p : Fin 256) (r : Fin 8192) (hr : r.val = 256 * t.val + p.val) :
    (outsAt0 m c t : Vec Ideal S256 .f32) (ix1 p) = Cert.Spec.lossAt (qarg m c) (karg m c) r := by
  unfold outsAt0
  refine (congrFun (out_eq_pay (F := Ideal) c (grid0.coords t) (ms0_0 t) (hs0_0 t) (ms0_1 t) (hs0_1 t) (ms0_2 t) (hs0_2 t) (qblk m c t) (kwin m c t)) (ix1 p)).trans ?_
  refine (KPayload.pay_apply (qblk m c t) (kwin m c t) (ownRows (grid0.coords t) (kwin m c t)) p).trans ?_
  refine bloss_eq_lossAt (qarg m c) (karg m c) (qblk m c t) (ownRows (grid0.coords t) (kwin m c t)) (kwin m c t) p r ?_ ?_ ?_
  · intro d
    rw [qblk_apply m c t p d r hr, qflat_eq, flat_read]
  · intro c' d
    rw [kwin_apply, kflat_eq, flat_read]
  · intro d
    rw [ownRows_apply t (kwin m c t) p d r hr, kwin_apply, kflat_eq, flat_read]

/-- What point `t` writes back is block `t` of the target array. -/
theorem flushed_eq (c : Dev nD) (t : Fin cfg0.N) :
    (dats m 0 c).flushed 2 t = ((cfg0.win 2).blk t).view.read (Elt Ideal) (target m c) := by
  rw [Value.flushed2 m c t]
  obtain ⟨-, -, -, -, e2, -⟩ := where_blocks t
  funext j
  have hp : (j 0).val < 256 := (j 0).isLt
  have hx : (cfg0.win 2).xinj (grid0.coords t) j = ix1 (⟨(j 0).val, hp⟩ : Fin 256) := by
    funext a
    match a with
    | ⟨0, _⟩ => rfl
  show (outsAt0 m c t : Vec Ideal S256 .f32) ((cfg0.win 2).xinj (grid0.coords t) j)
    = Cert.Spec.lossAt (qarg m c) (karg m c) ((((cfg0.win 2).blk t).view.emb j) 0)
  refine (congrArg (outsAt0 m c t : Vec Ideal S256 .f32) hx).trans ?_
  refine out_apply m c t ⟨(j 0).val, hp⟩ _ ?_
  show win0_2.index t 0 * 256 + 1 * (j 0).val = 256 * t.val + (j 0).val
  rw [e2]; omega

/-- Every entry of the result array lies in the block of the point numbered by its quotient by 256. -/
theorem covered (i : S8192.Idx) :
    ∃ t : Fin cfg0.N, (cfg0.win 2).flush t = true ∧ i ∈ ((cfg0.win 2).blk t).view.set := by
  have hi : (i 0).val < 8192 := (i 0).isLt
  have hN : (i 0).val / 256 < cfg0.N := by rw [grid_size]; omega
  obtain ⟨-, -, -, -, e2, -⟩ := where_blocks ⟨(i 0).val / 256, hN⟩
  refine ⟨⟨(i 0).val / 256, hN⟩, flush0_2 _, ?_⟩
  show i ∈ ((View.whole main_v2).slice (win0_2.rect ⟨(i 0).val / 256, hN⟩)).set
  rw [View.set_slice_whole, Rect.mem_set_unit]
  intro a
  match a with
  | ⟨0, _⟩ =>
    show win0_2.index ⟨(i 0).val / 256, hN⟩ 0 * 256 ≤ (i 0).val
      ∧ (i 0).val < win0_2.index ⟨(i 0).val / 256, hN⟩ 0 * 256 + 256
    rw [e2]
    show (i 0).val / 256 * 256 ≤ (i 0).val ∧ (i 0).val < (i 0).val / 256 * 256 + 256
    omega

/-- So the result array ends at the target. -/
theorem final (c : Dev nD) : (dats m 0 c).arrAt 2 cfg0.N = target m c :=
  (dats m 0 c).arrAt_eq_of_cover 2 (target m c) (fun t _ => flushed_eq m c t) covered

end blocks

/-- Every weakly fair execution of the idealized kernel's program ends with the result array at the loss of the
    argument arrays and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2)
        = Cert.Spec.loss (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KValue
end
-- ==== Proof.RefRow.lean ====
/-
  The row the reference lays out: the reshaped concatenation of the internal block and the masked external block,
  read at row `r` and column `col`, is column `col` of the specification's row `r`.
-/
import proofs.«127400_j29411936043016_1_alg».proof.Proof.RefRead
import proofs.«127400_j29411936043016_1_alg».proof.Proof.Spec
import Idealize.ShloMosaic.Lib.Pipeline.Value
import Idealize.ShloMosaic.Lib.ValueIdx
import Idealize.ShloMosaic.Lib.StableHlo.Predicate
import Idealize.ShloMosaic.PureOps.Ideal.Laws

noncomputable section

namespace Cert.ReferenceIdeal.RefRow

open Cert.ReferenceIdeal Cert.ReferenceIdeal.Gen Cert.ReferenceIdeal.ReadP Idealize.ShloMosaic Idealize.ShloMosaic.ValueIdx

/-- The internal block at image `a`, query patch `i`, key patch `j`: the scaled inner product of the two patches'
    feature vectors. -/
theorem v2_at (x0 x1 : (⟨S32x256x256, .f32⟩ : BufTy).Contents (Elt Ideal)) (a : Fin 32) (i j : Fin 256) :
    val_main_v2 (F := Ideal) x0 x1 (ix3 a i j)
      = Cert.Spec.scale * ∑ d : Fin 256, x0 (ix3 a i d) * x1 (ix3 a j d) := by
  rw [val_main_v2_apply, val_main_v1_apply, val_main_cst_apply, val_main_v0_apply]
  show Ideal.ofBits .f32 0x41649249#32 * _ = _
  refine congrArg _ (Finset.sum_congr rfl fun d _ => ?_)
  have el : lidx_main_v0 (ix3 a i j) d = ix3 a i d := by
    funext b; match b with | ⟨0, _⟩ => rfl | ⟨1, _⟩ => rfl | ⟨2, _⟩ => rfl
  have er : ridx_main_v0 (ix3 a i j) d = ix3 a j d := by
    funext b; match b with | ⟨0, _⟩ => rfl | ⟨1, _⟩ => rfl | ⟨2, _⟩ => rfl
  rw [el, er]

/-- The external block before its reshapes, at query image `kk`, key image `l`, query patch `i`, key patch `j`:
    bottom where the two images coincide (the 32×32 identity mask), otherwise the scaled inner product. -/
theorem v13_at (x0 x1 : (⟨S32x256x256, .f32⟩ : BufTy).Contents (Elt Ideal)) (kk l : Fin 32) (i j : Fin 256) :
    val_main_v13 (F := Ideal) x0 x1 (ix4 kk l i j)
      = if l.val = kk.val then (⊥ : EReal)
        else Cert.Spec.scale * ∑ d : Fin 256, x0 (ix3 kk i d) * x1 (ix3 l j d) := by
  rw [val_main_v13_apply, val_main_call0_v1_apply, val_main_v12_apply, val_main_v11_apply, val_main_v10_apply,
    val_main_v7_apply, val_main_v9_apply, val_main_c_apply, val_main_v8_apply]
  -- the mask bit: the row iota plus zero against the column iota, as 32-bit words of numbers below 32
  have hm : IntOp.cmpi CmpIPredicate.eq
      (IntOp.addi (BitVec.ofNat 32 (idx_main_v12 (idx_main_call0_v1 (ix4 kk l i j)) 0).val) 0#32)
      (BitVec.ofNat 32 (idx_main_v12 (idx_main_call0_v1 (ix4 kk l i j)) 1).val) = 1#1 ↔ l.val = kk.val := by
    rw [StableHlo.Predicate.cmpi_eq_iff]
    show BitVec.ofNat 32 kk.val + 0#32 = BitVec.ofNat 32 l.val ↔ _
    rw [BitVec.add_zero]
    constructor
    · intro h
      have h' := congrArg BitVec.toNat h
      simp only [BitVec.toNat_ofNat] at h'
      have := kk.isLt; have := l.isLt; omega
    · intro h; rw [h]
  by_cases h : l.val = kk.val
  · rw [if_pos h, hm.2 h, select_one, val_main_call0_v2_apply, val_main_call0_v0_apply, val_main_cst_1_apply]
    exact Cert.Spec.ofBits_negInf
  · rw [if_neg h, eq_zero_of_ne_one (fun hc => h (hm.1 hc)), select_zero, val_main_v6_apply, val_main_v5_apply,
      val_main_cst_0_apply, val_main_v4_apply, val_main_v3_apply]
    show Ideal.ofBits .f32 0x41649249#32 * _ = _
    refine congrArg _ (Finset.sum_congr rfl fun d _ => ?_)
    have el : lidx_main_v3 (idx_main_v4 (ix4 kk l i j)) d = ix3 l j d := by
      funext b; match b with | ⟨0, _⟩ => rfl | ⟨1, _⟩ => rfl | ⟨2, _⟩ => rfl
    have er : ridx_main_v3 (idx_main_v4 (ix4 kk l i j)) d = ix3 kk i d := by
      funext b; match b with | ⟨0, _⟩ => rfl | ⟨1, _⟩ => rfl | ⟨2, _⟩ => rfl
    rw [el, er, mul_comm]

/-- The reshaped external block at image `a`, query patch `i` and flat key patch `c`: the unreshaped block at key
    image `c / 256` and key patch `c % 256` (two transposes undo each other around the row-major split of `c`). -/
theorem v15_at (x0 x1 : (⟨S32x256x256, .f32⟩ : BufTy).Contents (Elt Ideal)) (a : Fin 32) (i : Fin 256) (c : Fin 8192) :
    val_main_v15 (F := Ideal) x0 x1 (ix3 a i c)
      = val_main_v13 (F := Ideal) x0 x1
          (ix4 a ⟨c.val / 256, by have := c.isLt; omega⟩ i ⟨c.val % 256, Nat.mod_lt _ (by decide)⟩) := by
  rw [val_main_v15_apply, val_main_v14_apply]
  refine congrArg (val_main_v13 (F := Ideal) x0 x1) ?_
  have ha := a.isLt; have hi := i.isLt; have hc := c.isLt
  funext b
  match b with
  | ⟨0, _⟩ => exact Fin.ext (by show ((a.val * 256 + i.val) * 8192 + c.val) / 2097152 = a.val; omega)
  | ⟨1, _⟩ => exact Fin.ext (by show ((a.val * 256 + i.val) * 8192 + c.val) / 256 % 32 = c.val / 256; omega)
  | ⟨2, _⟩ => exact Fin.ext (by show ((a.val * 256 + i.val) * 8192 + c.val) / 8192 % 256 = i.val; omega)
  | ⟨3, _⟩ => exact Fin.ext (by show ((a.val * 256 + i.val) * 8192 + c.val) % 256 = c.val % 256; omega)

/-- The specification's similarity of row `r` and key patch `c`, once the key patch's image and patch are named. -/
theorem sim_at (x0 x1 : (⟨S32x256x256, .f32⟩ : BufTy).Contents (Elt Ideal)) (r c : Fin 8192) (a : Fin 32) (j : Fin 256)
    (ha : c.val / 256 = a.val) (hj : c.val % 256 = j.val) :
    Cert.Spec.sim x0 x1 r c
      = Cert.Spec.scale * ∑ d : Fin 256, x0 (ix3 (Cert.Spec.img r) (Cert.Spec.pat r) d) * x1 (ix3 a j d) := by
  have e1 : Cert.Spec.img c = a := Fin.ext ha
  have e2 : Cert.Spec.pat c = j := Fin.ext hj
  rw [Cert.Spec.sim, e1, e2]

/-- The [8192, 8448] array the reference hands to its log-softmax, at row `r` and column `col`. -/
theorem full_apply (x0 x1 : (⟨S32x256x256, .f32⟩ : BufTy).Contents (Elt Ideal)) (r : Fin 8192) (col : Fin 8448) :
    val_main_v17 (F := Ideal) x0 x1 (ix2 r col) = Cert.Spec.refRow x0 x1 r col := by
  have hr := r.isLt; have hc := col.isLt
  rw [val_main_v17_apply]
  unfold val_main_v16
  by_cases h : col.val < 256
  · -- a column of the internal block: the first piece of the concatenation
    rw [Cert.Spec.refRow, dif_pos h]
    refine (concatenate_pair_apply_left (t := S32x256x8448) (s₁ := S32x256x256) (s₂ := S32x256x8192) (2 : Fin 3) _ _ _ (idx_main_v17 (ix2 r col)) rfl
      (ix3 (Cert.Spec.img r) (Cert.Spec.pat r) ⟨col.val, h⟩) ?_).trans ?_
    · intro b
      match b with
      | ⟨0, _⟩ => show r.val / 256 = (r.val * 8448 + col.val) / 2162688; omega
      | ⟨1, _⟩ => show r.val % 256 = (r.val * 8448 + col.val) / 8448 % 256; omega
      | ⟨2, _⟩ => show col.val = (r.val * 8448 + col.val) % 8448; omega
    · rw [v2_at]
      refine (sim_at x0 x1 r _ (Cert.Spec.img r) ⟨col.val, h⟩ ?_ ?_).symm
      · show (256 * (r.val / 256) + col.val) / 256 = r.val / 256; omega
      · show (256 * (r.val / 256) + col.val) % 256 = col.val; omega
  · -- a column of the external block: the second piece, 256 columns further on
    rw [Cert.Spec.refRow, dif_neg h]
    have h8 : col.val - 256 < 8192 := by omega
    refine (concatenate_pair_apply_right (t := S32x256x8448) (s₁ := S32x256x256) (s₂ := S32x256x8192) (2 : Fin 3) _ _ _ (idx_main_v17 (ix2 r col)) rfl rfl
      (ix3 (Cert.Spec.img r) (Cert.Spec.pat r) ⟨col.val - 256, h8⟩) ?_ ?_).trans ?_
    · intro b hb
      match b with
      | ⟨0, _⟩ => show r.val / 256 = (r.val * 8448 + col.val) / 2162688; omega
      | ⟨1, _⟩ => show r.val % 256 = (r.val * 8448 + col.val) / 8448 % 256; omega
      | ⟨2, _⟩ => exact absurd rfl hb
    · show (col.val - 256) + 256 = (r.val * 8448 + col.val) % 8448; omega
    · rw [v15_at, v13_at]
      by_cases hm : (col.val - 256) / 256 = (Cert.Spec.img r).val
      · rw [if_pos hm, if_pos hm]
      · rw [if_neg hm, if_neg hm]
        refine (sim_at x0 x1 r _ _ _ ?_ ?_).symm
        · rfl
        · rfl

end Cert.ReferenceIdeal.RefRow

end
-- ==== Proof.RefValue.lean ====
/-
  The reference's result, read at row `r`: minus the log-probability of the label column of the row it lays out.

  The stages after the [8192, 8448] array are read one at a time. The label of row `r` is the word of `r % 256`; it is
  not negative and lies in `[0, 8447]`, so the index handed to the gather is the label itself and the in-range bit of
  every row is set. The gather's row axis is a batching axis and its column axis the collapsed one: row `r` of the result
  reads row `r` of the operand at the clamped label, which is the label. The log-softmax at (r, c) is the row's entry less
  the row maximum (a fold of `max` from -infinity, once more against -infinity) less the logarithm of the row's sum of
  shifted exponentials (from zero). With the neighbouring module's reading of the row these are the specification's
  `refMax`, `refSum` and `refLossAt`.
-/
import proofs.«127400_j29411936043016_1_alg».proof.Proof.RefRead
import proofs.«127400_j29411936043016_1_alg».proof.Proof.RefRow
import proofs.«127400_j29411936043016_1_alg».proof.Proof.Spec
import Idealize.ShloMosaic.Lib.Pipeline.Value
import Idealize.ShloMosaic.Lib.ValueIdx
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

variable {F : FTy → Type} [FloatOps F]

/-! ## The labels and the index handed to the gather -/

/-- The label array: row `r` carries the word of `r % 256`. -/
theorem label_apply (i : S8192x1.Idx) :
    val_main_v23 (F := F) i = BitVec.ofNat 32 ((i 0).val % 256) := by
  rw [val_main_v23_apply, val_main_v21_apply, val_main_v20_apply, val_main_v19_apply, val_main_v18_apply]
  show BitVec.ofNat 32 (0 * 256 + (i 0).val % 256) = _
  rw [Nat.zero_mul, Nat.zero_add]

/-- A number below 256 is the value of its 32-bit word. -/
theorem toNat_small (n : Nat) (h : n < 256) : (BitVec.ofNat 32 n).toNat = n := by
  rw [BitVec.toNat_ofNat]; exact Nat.mod_eq_of_lt (by omega)

/-- The label is not negative, so the index the gather is given is the label itself. -/
theorem index_apply (i : S8192x1.Idx) :
    val_main_call2_v4 (F := F) i = BitVec.ofNat 32 ((i 0).val % 256) := by
  rw [val_main_call2_v4_apply, val_main_call2_v1_apply, label_apply, val_main_call2_v0_apply, val_main_call2_c_apply]
  have hlt : (i 0).val % 256 < 256 := Nat.mod_lt _ (by decide)
  have h0 : IntOp.cmpi .slt (BitVec.ofNat 32 ((i 0).val % 256)) 0#32 = 0#1 := by
    apply eq_zero_of_ne_one
    rw [StableHlo.Predicate.slt_iff_toNat (by rw [toNat_small _ hlt]; omega) (by decide)]
    simp
  rw [h0, select_zero]

/-- The same index with a trailing unit axis. -/
theorem index3_apply (i : S8192x1x1.Idx) :
    val_main_call2_v5 (F := F) i = BitVec.ofNat 32 ((i 0).val % 256) := by
  rw [val_main_call2_v5_apply, index_apply]
  have h1 : (i 1).val = 0 := by have h : (i 1).val < 1 := (i 1).isLt; omega
  have h2 : (i 2).val = 0 := by have h : (i 2).val < 1 := (i 2).isLt; omega
  show BitVec.ofNat 32 ((((i 0).val * 1 + (i 1).val) * 1 + (i 2).val) / 1 % 256) = _
  rw [h1, h2]; simp

/-! ## The in-range bit -/

/-- The label is inside `[0, 8447]`: both comparisons hold, at every index. -/
theorem inrange_apply (i : S8192x1x1.Idx) : val_main_call2_v11 (F := F) i = 1#1 := by
  rw [val_main_call2_v11_apply, val_main_call2_v7_apply, val_main_call2_v10_apply, index3_apply,
    val_main_call2_v6_apply, val_main_call2_c_2_apply, val_main_call2_v9_apply, val_main_call2_v8_apply,
    val_main_call2_c_1_apply]
  have hlt : (i 0).val % 256 < 256 := Nat.mod_lt _ (by decide)
  have hn : (BitVec.ofNat 32 ((i 0).val % 256)).toNat < 2 ^ 31 := by rw [toNat_small _ hlt]; omega
  have hge : IntOp.cmpi .sge (BitVec.ofNat 32 ((i 0).val % 256)) 0#32 = 1#1 :=
    (StableHlo.Predicate.sge_iff_toNat hn (by decide)).mpr (Nat.zero_le _)
  have hle : IntOp.cmpi .sle (BitVec.ofNat 32 ((i 0).val % 256)) 8447#32 = 1#1 :=
    (StableHlo.Predicate.sle_iff_toNat hn (by decide)).mpr (by rw [toNat_small _ hlt]; show _ ≤ 8447; omega)
  rw [hge, hle]; rfl

/-- A conjunction of true bits, from the true bit, is the true bit. -/
theorem fold_andi_one {ι : Type} (S : Finset ι) : S.fold IntOp.andi 1#1 (fun _ => 1#1) = 1#1 := by
  induction S using Finset.cons_induction with
  | empty => rfl
  | cons a S ha ih => rw [Finset.fold_cons, ih]; rfl

/-- The in-range bit of every row is set. -/
theorem inrange_row (j : S8192x1.Idx) : val_main_call2_v12 (F := F) j = 1#1 := by
  unfold val_main_call2_v12
  rw [Host.reduce_eq_fold_single IntOp.andi _ _ reducesTo_S8192x1x1_S8192x1_d2 (by decide) h_S_ j]
  rw [show (val_main_call2_v11 (F := F) ∘ Shape.Reduces.lift (by decide : S8192x1x1.Reduces [2] S8192x1) j) = fun _ => 1#1 from
    funext fun k => inrange_apply _]
  rw [val_main_call2_c_3_apply]
  exact fold_andi_one _

/-! ## The gather -/

section Gather
variable {α : Type}

local notation "gd" => gather_S8192x8448_S8192x1x1_S8192x1_n_1_0_0_1_2_11

/-- The gather, read at row `j 0`: the operand's element of that row at the column the row's start index names,
    read signed and clamped into `[0, 8447]`. The row axis is a batching axis (the result's row picks the operand's
    row and the start indices' row); the column axis is the collapsed one the start index moves along. -/
theorem gather_apply (x : S8192x8448.Idx → α) (idx : IVec S8192x1x1 32) (j : S8192x1.Idx) :
    Host.gather gd x idx j
      = x (ix2 (⟨(j 0).val, idx2_lt0 j⟩ : Fin 8192)
          (⟨min (idx (ix3 (⟨(j 0).val, idx2_lt0 j⟩ : Fin 8192) (0 : Fin 1) (0 : Fin 1))).toInt.toNat 8447, by omega⟩ : Fin 8448)) := by
  unfold Host.gather
  refine congrArg x ?_
  funext a
  refine Fin.ext ?_
  match a with
  | ⟨0, _⟩ =>
    show GatherDims.start gd j idx 0 + GatherDims.batchCoord gd j 0 + GatherDims.offCoord gd j 0 = (j 0).val
    rw [GatherDims.start_batching _ j idx 0 (List.mem_singleton.mpr rfl),
      GatherDims.offCoord_eq_zero _ j 0 (fun h => ((GatherDims.mem_sKept _ _).mp h).2 (List.mem_singleton.mpr rfl))]
    rw [Nat.zero_add, Nat.add_zero]
    unfold GatherDims.batchCoord
    rw [dif_pos (show (0 : Fin 2) ∈ GatherDims.operandBatchingDims gd from List.mem_singleton.mpr rfl)]
    rfl
  | ⟨1, _⟩ =>
    show GatherDims.start gd j idx 1 + GatherDims.batchCoord gd j 1 + GatherDims.offCoord gd j 1 = min _ 8447
    rw [GatherDims.batchCoord_eq_zero _ j 1 (by decide),
      GatherDims.offCoord_eq_zero _ j 1 (fun h => ((GatherDims.mem_sKept _ _).mp h).1 (List.mem_singleton.mpr rfl))]
    simp only [Nat.add_zero]
    unfold GatherDims.start
    rw [dif_pos (show (1 : Fin 2) ∈ GatherDims.startIndexMap gd from List.mem_singleton.mpr rfl)]
    have hsi : GatherDims.siIdx gd j ⟨List.idxOf (1 : Fin 2) (GatherDims.startIndexMap gd),
        List.idxOf_lt_length_iff.2 (List.mem_singleton.mpr rfl)⟩
          = ix3 (⟨(j 0).val, idx2_lt0 j⟩ : Fin 8192) (0 : Fin 1) (0 : Fin 1) := by
      funext b; refine Fin.ext ?_
      match b with
      | ⟨0, _⟩ => rfl
      | ⟨1, _⟩ =>
        show (j 1).val = 0
        have h : (j 1).val < 1 := (j 1).isLt
        omega
      | ⟨2, _⟩ => rfl
    rw [hsi]
    rfl

end Gather

/-! ## The log-softmax of a row -/

section LogSoftmax
variable (x0 x1 : (⟨S32x256x256, .f32⟩ : BufTy).Contents (Elt Ideal))

/-- Row `r` of the array the log-softmax is given. -/
def rowOf (r : Fin 8192) (col : Fin 8448) : EReal := val_main_v17 (F := Ideal) x0 x1 (ix2 r col)

/-- The row maximum as the program takes it: the fold of `max` over the row from the word of -infinity, then once more
    against that word. -/
def rmax (r : Fin 8192) : EReal :=
  max (Ideal.ofBits .f32 0xFF800000#32)
    ((Finset.univ : Finset (Fin 8448)).fold max (Ideal.ofBits .f32 0xFF800000#32) (rowOf x0 x1 r))

/-- The row's sum of shifted exponentials, from the word of zero. -/
def rsum (r : Fin 8192) : EReal :=
  Ideal.ofBits .f32 0x00000000#32 + ∑ col : Fin 8448, Ideal.exp (rowOf x0 x1 r col - rmax x0 x1 r)

/-- The reduction by `max` along the columns, at row `r`. -/
theorem rowmax_apply (r : Fin 8192) :
    val_main_call1_v0 (F := Ideal) x0 x1 (ix1 r)
      = (Finset.univ : Finset (Fin 8448)).fold max (Ideal.ofBits .f32 0xFF800000#32) (rowOf x0 x1 r) := by
  unfold val_main_call1_v0
  rw [Host.reduce_eq_fold_single FloatOps.maximumf _ _ reducesTo_S8192x8448_S8192_d1 (by decide) h_S_ (ix1 r)]
  rw [val_main_call1_cst_apply]
  have e : (val_main_v17 (F := Ideal) x0 x1 ∘ Shape.Reduces.lift (by decide : S8192x8448.Reduces [1] S8192) (ix1 r))
      = rowOf x0 x1 r := by
    funext col
    refine congrArg (val_main_v17 (F := Ideal) x0 x1) ?_
    funext a; refine Fin.ext ?_
    match a with
    | ⟨0, _⟩ => rfl
    | ⟨1, _⟩ => rfl
  show (Finset.univ : Finset (Fin 8448)).fold max (Ideal.ofBits .f32 0xFF800000#32)
    (val_main_v17 (F := Ideal) x0 x1 ∘ Shape.Reduces.lift (by decide : S8192x8448.Reduces [1] S8192) (ix1 r)) = _
  rw [e]
  rfl

/-- The shift, broadcast along the row. -/
theorem shift_apply (r : Fin 8192) (c : Fin 8448) :
    val_main_call1_v4 (F := Ideal) x0 x1 (ix2 r c) = rmax x0 x1 r := by
  rw [val_main_call1_v4_apply, val_main_call1_v3_apply, val_main_call1_v2_apply, val_main_call1_v1_apply,
    val_main_call1_cst_0_apply]
  have e : idx_main_call1_v3 (idx_main_call1_v4 (ix2 r c)) = ix1 r := by
    funext a; match a with | ⟨0, _⟩ => rfl
  rw [e, rowmax_apply]
  rfl

/-- The shifted row. -/
theorem shifted_apply (r : Fin 8192) (c : Fin 8448) :
    val_main_call1_v5 (F := Ideal) x0 x1 (ix2 r c) = rowOf x0 x1 r c - rmax x0 x1 r := by
  rw [val_main_call1_v5_apply, shift_apply]
  rfl

/-- The sum of exponentials of the shifted row. -/
theorem rowsum_apply (r : Fin 8192) :
    val_main_call1_v7 (F := Ideal) x0 x1 (ix1 r) = rsum x0 x1 r := by
  rw [val_main_call1_v7_apply, val_main_call1_cst_1_apply]
  unfold rsum
  refine congrArg (_ + ·) (Finset.sum_congr rfl fun k _ => ?_)
  have e : idx_main_call1_v7 (ix1 r) k = ix2 r k := by
    funext a; match a with | ⟨0, _⟩ => rfl | ⟨1, _⟩ => rfl
  rw [e, val_main_call1_v6_apply, shifted_apply]
  rfl

/-- The log-softmax at row `r`, column `c`. -/
theorem logsoftmax_apply (r : Fin 8192) (c : Fin 8448) :
    val_main_v22 (F := Ideal) x0 x1 (ix2 r c)
      = (rowOf x0 x1 r c - rmax x0 x1 r) - Ideal.log (rsum x0 x1 r) := by
  rw [val_main_v22_apply, shifted_apply, val_main_call1_v10_apply, val_main_call1_v9_apply, val_main_call1_v8_apply]
  have e : idx_main_call1_v8 (idx_main_call1_v10 (ix2 r c)) = ix1 r := by
    funext a; match a with | ⟨0, _⟩ => rfl
  rw [e, rowsum_apply]
  rfl

end LogSoftmax

/-! ## The assembly -/

section Assembly
variable (x0 x1 : (⟨S32x256x256, .f32⟩ : BufTy).Contents (Elt Ideal))

/-- A small label's word, read signed and clamped into `[0, 8447]`, is the label. -/
theorem clamp_label (n : Nat) (h : n < 256) : min (BitVec.ofNat 32 n).toInt.toNat 8447 = n := by
  rw [StableHlo.Predicate.toInt_ofNat_small n (by omega), Int.toNat_natCast]
  omega

/-- The gathered element of row `r` is the log-softmax at the row's label column. -/
theorem picked_apply (r : Fin 8192) :
    val_main_call2_v13 (F := Ideal) x0 x1 (idx_main_v25 (ix1 r))
      = val_main_v22 (F := Ideal) x0 x1 (ix2 r (Cert.Spec.lbl r)) := by
  unfold val_main_call2_v13
  rw [gather_apply]
  refine congrArg (val_main_v22 (F := Ideal) x0 x1) ?_
  funext a; refine Fin.ext ?_
  match a with
  | ⟨0, _⟩ =>
    show r.val / 1 = r.val
    exact Nat.div_one _
  | ⟨1, _⟩ =>
    show min (val_main_call2_v5 (F := Ideal) _).toInt.toNat 8447 = r.val % 256
    rw [index3_apply]
    show min (BitVec.ofNat 32 (r.val / 1 % 256)).toInt.toNat 8447 = r.val % 256
    rw [Nat.div_one]
    exact clamp_label _ (Nat.mod_lt _ (by decide))

/-- The row the log-softmax is given is the row the specification lays out. -/
theorem rowOf_eq (r : Fin 8192) : rowOf x0 x1 r = Cert.Spec.refRow x0 x1 r :=
  funext fun col => RefRow.full_apply x0 x1 r col

/-- The program's row maximum is the specification's. -/
theorem rmax_eq (r : Fin 8192) : rmax x0 x1 r = Cert.Spec.refMax x0 x1 r := by
  unfold rmax Cert.Spec.refMax
  rw [rowOf_eq, Cert.Spec.ofBits_negInf]

/-- The program's row sum is the specification's. -/
theorem rsum_eq (r : Fin 8192) : rsum x0 x1 r = Cert.Spec.refSum x0 x1 r := by
  unfold rsum Cert.Spec.refSum
  rw [rowOf_eq, rmax_eq, Ideal.ofBits_zero_f32]

end Assembly

/-- The reference's last stage at row `r` is the reference's loss of the row as the specification lays it out. -/
theorem val_eq_refLossAt (x0 x1 : (⟨S32x256x256, .f32⟩ : BufTy).Contents (Elt Ideal)) (r : Fin 8192) :
    val_main_v26 (F := Ideal) x0 x1 (ix1 r) = Cert.Spec.refLossAt x0 x1 r := by
  rw [val_main_v26_apply, val_main_v25_apply, val_main_v24_apply, inrange_row, select_one, picked_apply,
    logsoftmax_apply, rowOf_eq, rmax_eq, rsum_eq, Ideal.hostNegf_def, Ideal.negf_def]
  rfl

end Cert.ReferenceIdeal.RefValue

end
-- ==== Proof.lean ====
/-
  The claim: the kernel and the reference compute one function of the two argument arrays.

  Both programs take q, k : [32, 256, 256] and return 8192 numbers. Row r of the kernel's result is the log-sum-exp
  of the scaled similarities of query patch r with all 8192 key patches, less the similarity with key patch r
  (Proof/Spec.lean states this function; Proof/KernelValue.lean shows the kernel's run ends at it, block by block).
  The reference lays the same similarities out in 8448 columns, 256 of them a second time as -infinity, takes a
  log-softmax and returns minus the entry of the label column. A column at -infinity adds exp(-infinity) = 0 to the
  sum and nothing to the maximum, so the two rows have one maximum and one sum (no finiteness needed); the last
  step, -((p - m) - l) = (m + l) - p, is an identity of real numbers, and the precondition makes every entry of
  both arrays real, hence p, m and l real (Proof/RowAlgebra.lean, Proof/InputsFinite.lean). The reference's stages
  are read at an index in Proof/RefRow.lean and Proof/RefValue.lean.
  The idealization rewrote nothing, so `preserves` holds trivially; the two kernel frames are the generated ones, and
  the reference's frame is its run with the result dropped.
-/
import proofs.«127400_j29411936043016_1_alg».proof.Defs
import proofs.«127400_j29411936043016_1_alg».proof.Proof.Gen.Kernel
import proofs.«127400_j29411936043016_1_alg».proof.Proof.Gen.Kernel.Frame
import proofs.«127400_j29411936043016_1_alg».proof.Proof.Gen.KernelIdeal
import proofs.«127400_j29411936043016_1_alg».proof.Proof.Gen.KernelIdeal.Frame
import proofs.«127400_j29411936043016_1_alg».proof.Proof.Gen.ReferenceIdeal
import proofs.«127400_j29411936043016_1_alg».proof.Proof.Gen.Pre_finite_inputs
import proofs.«127400_j29411936043016_1_alg».proof.Proof.Gen.KernelIdeal.Value
import proofs.«127400_j29411936043016_1_alg».proof.Proof.RefRun
import proofs.«127400_j29411936043016_1_alg».proof.Proof.RefRead
import proofs.«127400_j29411936043016_1_alg».proof.Proof.Spec
import proofs.«127400_j29411936043016_1_alg».proof.Proof.RowAlgebra
import proofs.«127400_j29411936043016_1_alg».proof.Proof.InputsFinite
import proofs.«127400_j29411936043016_1_alg».proof.Proof.KernelValue
import proofs.«127400_j29411936043016_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end at the loss of the argument arrays: the kernel's by its blocks, the reference's stage by stage, and
    at real inputs the reference's arrangement of a row is the kernel's. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨hq, hk⟩ := Cert.InputsFinite.finite_of_pre _ _ (hpre c)
  rw [Cert.ReferenceIdeal.ReadP.val_main_v26_eq, (hagree c).1, (hagree c).2]
  funext j
  obtain ⟨r, rfl⟩ : ∃ r : Fin 8192, j = ValueIdx.ix1 r := ⟨j 0, ValueIdx.eq_ix1 j⟩
  rw [Cert.ReferenceIdeal.RefValue.val_eq_refLossAt, Cert.Spec.refLossAt_eq_lossAt _ _ hq hk]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
